-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S200000x20 : Shape := ⟨2, ![200000, 20]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S200000x20 : S_.BroadcastsInDim S200000x20 (![] : Fin 0 → Fin S200000x20.rank)
  reducesTo_S200000x20_S_d0_1 : S200000x20.ReducesTo [0, 1] S_

variable [Facts]

def fn {F : FTy → Type} [FloatOps F] (main_arg0 : FVec F S200000x256 .f32) (main_arg1 : FVec F S200000x20 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S200000x20 .f32 := Host.absf main_arg1
  let main_cst_0 : FVec F S_ .f32 := constant S_ .f32 0x7F800000#32
  let main_v5 : FVec F S200000x20 .f32 := broadcastInDim S200000x20 ![] bcast_S_S200000x20 main_cst_0
  let main_v6 : IVec S200000x20 1 := cmpf .olt main_v4 main_v5
  let main_c_1 : IVec S_ 1 := constantI S_ 1 1#1
  let main_v7 : IVec S_ 1 := (fun x v => Host.reduce IntOp.andi x v reducesTo_S200000x20_S_d0_1 h_S_) main_v6 main_c_1
  let main_v8 : IVec S_ 1 := andi main_v3 main_v7
  main_v8
-- ==== Kernel.lean ====
abbrev S200000x256 : Shape := ⟨2, ![200000, 256]⟩
abbrev S200000x20 : Shape := ⟨2, ![200000, 20]⟩
abbrev S1x1 : Shape := ⟨2, ![1, 1]⟩
abbrev S10000x256 : Shape := ⟨2, ![10000, 256]⟩
abbrev S10000x20 : Shape := ⟨2, ![10000, 20]⟩
abbrev S256x20 : Shape := ⟨2, ![256, 20]⟩
abbrev S10000 : Shape := ⟨1, ![10000]⟩
abbrev S10000x1 : Shape := ⟨2, ![10000, 1]⟩
abbrev S1 : Shape := ⟨1, ![1]⟩
abbrev S256 : Shape := ⟨1, ![256]⟩
abbrev S256x1 : Shape := ⟨2, ![256, 1]⟩
abbrev S_ : Shape := ⟨0, ![]⟩

abbrev nBuf : Space → Nat
  | .hbm => 4
  | .vmem => 7
  | .smem => 0
  | _ => 0

abbrev bufTy : (tb : Table) → Fin (tcTables nBuf tb) → BufTy
  | .hbm, ⟨0, _⟩ => ⟨S200000x256, .f32⟩
  | .hbm, ⟨1, _⟩ => ⟨S200000x20, .f32⟩
  | .hbm, ⟨2, _⟩ => ⟨S1x1, .f32⟩
  | .hbm, ⟨3, _⟩ => ⟨S_, .f32⟩
  | .local _ .vmem, ⟨0, _⟩ => ⟨S10000x256, .f32⟩
  | .local _ .vmem, ⟨1, _⟩ => ⟨S10000x256, .f32⟩
  | .local _ .vmem, ⟨2, _⟩ => ⟨S10000x20, .f32⟩
  | .local _ .vmem, ⟨3, _⟩ => ⟨S10000x20, .f32⟩
  | .local _ .vmem, ⟨4, _⟩ => ⟨S1x1, .f32⟩
  | .local _ .vmem, ⟨5, _⟩ => ⟨S1x1, .f32⟩
  | .local _ .vmem, ⟨6, _⟩ => ⟨S256x20, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v21 : BitVec 1 := Scalar.cmpi .eq arg0 c19_i32
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x20_S256x20_0_0 : ∀ a, (![0, 0] : Fin 2 → Nat) a + S256x20.size a ≤ S256x20.size a
  h_S256x20 : 0 < S256x20.numel
  shapeCasts_S256x20_S256x20 : S256x20.ShapeCasts S256x20
  inb_S10000x256_S10000x256_0_0 : ∀ a, (![0, 0] : Fin 2 → Nat) a + S10000x256.size a ≤ S10000x256.size a
  h_S10000x256 : 0 < S10000x256.numel
  inb_S10000x20_S10000x20_0_0 : ∀ a, (![0, 0] : Fin 2 → Nat) a + S10000x20.size a ≤ S10000x20.size a
  h_S10000x20 : 0 < S10000x20.numel
  reduces_S10000x256_S10000 : S10000x256.Reduces [1] S10000
  shapeCasts_S10000_S10000x1 : S10000.ShapeCasts S10000x1
  reduces_S10000x1_S1 : S10000x1.Reduces [0] S1
  shapeCasts_S1_S1x1 : S1.ShapeCasts S1x1
  reduces_S256x20_S256 : S256x20.Reduces [1] S256
  shapeCasts_S256_S256x1 : S256.ShapeCasts S256x1
  reduces_S256x1_S1 : S256x1.Reduces [0] S1
  shapeCasts_S1x1_S_ : S1x1.ShapeCasts S_
  dot_S10000x256_S10000x20_S256x20_0_0_1_1_n_n_wf : DotDims.WF S10000x256 S10000x20 S256x20 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S200000x256.size a
  hwx0_0 : ∀ i : grid0.Coords, EltTy.bits .f32 = 32 ∨ (Rect.block (s := S200000x256) S10000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x20.size a ≤ S200000x20.size a
  hwx0_1 : ∀ i : grid0.Coords, EltTy.bits .f32 = 32 ∨ (Rect.block (s := S200000x20) S10000x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S10000x256_S10000x20_S256x20_0_0_1_1_n_n : DotDims S10000x256 S10000x20 S256x20 where
  lhsContracting := [0]
  rhsContracting := [0]
  lhsNonContracting := [1]
  rhsNonContracting := [1]
  lhsBatch := []
  rhsBatch := []
  wf := dot_S10000x256_S10000x20_S256x20_0_0_1_1_n_n_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S200000x256 : Shape := ⟨2, ![200000, 256]⟩
abbrev S200000x20 : Shape := ⟨2, ![200000, 20]⟩
abbrev S_ : Shape := ⟨0, ![]⟩
abbrev S256x20 : Shape := ⟨2, ![256, 20]⟩

abbrev nBuf : Space → Nat
  | .hbm => 10
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S200000x20, .f32⟩
  | .hbm, ⟨2, _⟩ => ⟨S200000x256, .f32⟩
  | .hbm, ⟨3, _⟩ => ⟨S_, .f32⟩
  | .hbm, ⟨4, _⟩ => ⟨S_, .f32⟩
  | .hbm, ⟨5, _⟩ => ⟨S256x20, .f32⟩
  | .hbm, ⟨6, _⟩ => ⟨S256x20, .f32⟩
  | .hbm, ⟨7, _⟩ => ⟨S_, .f32⟩
  | .hbm, ⟨8, _⟩ => ⟨S_, .f32⟩
  | .hbm, ⟨9, _⟩ => ⟨S_, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  reducesTo_S200000x256_S_d0_1 : S200000x256.ReducesTo [0, 1] S_
  h_S_ : 0 < S_.numel
  reducesTo_S256x20_S_d0_1 : S256x20.ReducesTo [0, 1] S_
  dot_S200000x256_S200000x20_S256x20_0_0_1_1_n_n_wf : DotDims.WF S200000x256 S200000x20 S256x20 [0] [0] [1] [1] [] []

variable [Facts₀]

def dot_S200000x256_S200000x20_S256x20_0_0_1_1_n_n : DotDims S200000x256 S200000x20 S256x20 where
  lhsContracting := [0]
  rhsContracting := [0]
  lhsNonContracting := [1]
  rhsNonContracting := [1]
  lhsBatch := []
  rhsBatch := []
  wf := dot_S200000x256_S200000x20_S256x20_0_0_1_1_n_n_wf

class Facts : Prop extends Facts₀ where

variable [Facts]
-- ==== Proof.Pieces.lean ====
/-
  What one run of the kernel body leaves behind, case by case, as the body's stored values.

  The body runs in one of three ways. At the first tile it zeroes both running totals and then adds the tile's
  contribution to each; at a middle tile it adds the tile's contribution to what the tile before left; at the last
  tile it does the same and then stores the result, computed from the two totals it has just updated. Each buffer's
  final contents are the value of the last store that covers it, with every load of an earlier store of the same
  run replaced by that store's value.
-/
import proofs.«145819_j51539607552337_1_alg».proof.Proof.Gen.KernelIdeal.Frame
import Idealize.ShloMosaic.Lib.Pipeline.Value
import Idealize.ShloMosaic.Lib.Tactic

set_option maxRecDepth 16384

noncomputable section

namespace Cert.KernelIdeal.KValue

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-! ## The first tile: both totals start from the zeros the body has just stored -/

theorem sc0_A (c : Dev nD) (i : grid0.Coords) (a1 : Memref sig .tc .vmem S10000x256 .f32) (h1 : a1.IsWhole) (a2 : Memref sig .tc .vmem S10000x20 .f32) (h2 : a2.IsWhole) (a3 : Memref sig .tc .vmem S1x1 .f32) (h3 : a3.IsWhole) (a4 : Memref sig .tc .vmem S1x1 .f32) (h4 : a4.IsWhole) (a5 : Memref sig .tc .vmem S256x20 .f32) (h5 : a5.IsWhole) (hc0 : cond0_0 i) (hc1 : ¬cond0_1 i) (x0 : Vec F S10000x256 .f32) (x1 : Vec F S10000x20 .f32) :
    sout0_A_0 c i a1 h1 a2 h2 a3 h3 a4 h4 a5 h5 hc0 hc1 x0 x1 = k0_pay3 x0 (k0_pay1 (F := F)) := by
  unfold sout0_A_0
  rw [View.read_writes_eq_canon _ _ _ (scover0_A_0 c i a1 h1 a2 h2 a3 h3 a4 h4 a5 h5 hc0 hc1 x0 x1)]
  unfold kernelRun0_A
  dsimp only
  sl_unfold_words
  rw [View.canon_cons_unit_zero (S := S1x1) hz]
  simp only [View.readAt_eq_ld, h1.read_unread, h2.read_unread, h4.read_unread, h5.read_unread,
    View.ld_unit_zero (S := S10000x256) hz, View.ld_unit_zero (S := S10000x20) hz, View.ld_unit_zero (S := S1x1) hz,
    View.ld_unit_zero (S := S256x20) hz, View.readCov_unit_zero (S := S1x1) _ hz, View.readCov_unit_zero (S := S256x20) _ hz]

theorem sc1_A (c : Dev nD) (i : grid0.Coords) (a1 : Memref sig .tc .vmem S10000x256 .f32) (h1 : a1.IsWhole) (a2 : Memref sig .tc .vmem S10000x20 .f32) (h2 : a2.IsWhole) (a3 : Memref sig .tc .vmem S1x1 .f32) (h3 : a3.IsWhole) (a4 : Memref sig .tc .vmem S1x1 .f32) (h4 : a4.IsWhole) (a5 : Memref sig .tc .vmem S256x20 .f32) (h5 : a5.IsWhole) (hc0 : cond0_0 i) (hc1 : ¬cond0_1 i) (x0 : Vec F S10000x256 .f32) (x1 : Vec F S10000x20 .f32) :
    sout0_A_1 c i a1 h1 a2 h2 a3 h3 a4 h4 a5 h5 hc0 hc1 x0 x1 = k0_pay4 x0 x1 (k0_pay2 (F := F)) := by
  unfold sout0_A_1
  rw [View.read_writes_eq_canon _ _ _ (scover0_A_1 c i a1 h1 a2 h2 a3 h3 a4 h4 a5 h5 hc0 hc1 x0 x1)]
  unfold kernelRun0_A
  dsimp only
  sl_unfold_words
  rw [View.canon_cons_unit_zero (S := S256x20) hz]
  simp only [View.readAt_eq_ld, h1.read_unread, h2.read_unread, h4.read_unread, h5.read_unread,
    View.ld_unit_zero (S := S10000x256) hz, View.ld_unit_zero (S := S10000x20) hz, View.ld_unit_zero (S := S1x1) hz,
    View.ld_unit_zero (S := S256x20) hz, View.readCov_unit_zero (S := S1x1) _ hz, View.readCov_unit_zero (S := S256x20) _ hz]

/-! ## A middle tile: both totals start from what the tile before left -/

theorem sc0_B (c : Dev nD) (i : grid0.Coords) (a1 : Memref sig .tc .vmem S10000x256 .f32) (h1 : a1.IsWhole) (a2 : Memref sig .tc .vmem S10000x20 .f32) (h2 : a2.IsWhole) (a3 : Memref sig .tc .vmem S1x1 .f32) (h3 : a3.IsWhole) (a4 : Memref sig .tc .vmem S1x1 .f32) (h4 : a4.IsWhole) (a5 : Memref sig .tc .vmem S256x20 .f32) (h5 : a5.IsWhole) (hc0 : ¬cond0_0 i) (hc1 : ¬cond0_1 i) (x0 : Vec F S10000x256 .f32) (x1 : Vec F S10000x20 .f32) (xs0 : Vec F S1x1 .f32) (xs1 : Vec F S256x20 .f32) :
    sout0_B_0 c i a1 h1 a2 h2 a3 h3 a4 h4 a5 h5 hc0 hc1 x0 x1 xs0 xs1 = k0_pay3 x0 xs0 := by
  unfold sout0_B_0
  rw [View.read_writes_eq_canon _ _ _ (scover0_B_0 c i a1 h1 a2 h2 a3 h3 a4 h4 a5 h5 hc0 hc1 x0 x1 xs0 xs1)]
  unfold kernelRun0_B
  dsimp only
  sl_unfold_words
  rw [View.canon_unit_zero hz]
  simp only [View.readAt_eq_ld, h1.read_unread, h2.read_unread, h4.read_unread, h5.read_unread,
    View.ld_unit_zero (S := S10000x256) hz, View.ld_unit_zero (S := S10000x20) hz, View.ld_unit_zero (S := S1x1) hz,
    View.ld_unit_zero (S := S256x20) hz, View.readCov_unit_zero (S := S1x1) _ hz, View.readCov_unit_zero (S := S256x20) _ hz]

theorem sc1_B (c : Dev nD) (i : grid0.Coords) (a1 : Memref sig .tc .vmem S10000x256 .f32) (h1 : a1.IsWhole) (a2 : Memref sig .tc .vmem S10000x20 .f32) (h2 : a2.IsWhole) (a3 : Memref sig .tc .vmem S1x1 .f32) (h3 : a3.IsWhole) (a4 : Memref sig .tc .vmem S1x1 .f32) (h4 : a4.IsWhole) (a5 : Memref sig .tc .vmem S256x20 .f32) (h5 : a5.IsWhole) (hc0 : ¬cond0_0 i) (hc1 : ¬cond0_1 i) (x0 : Vec F S10000x256 .f32) (x1 : Vec F S10000x20 .f32) (xs0 : Vec F S1x1 .f32) (xs1 : Vec F S256x20 .f32) :
    sout0_B_1 c i a1 h1 a2 h2 a3 h3 a4 h4 a5 h5 hc0 hc1 x0 x1 xs0 xs1 = k0_pay4 x0 x1 xs1 := by
  unfold sout0_B_1
  rw [View.read_writes_eq_canon _ _ _ (scover0_B_1 c i a1 h1 a2 h2 a3 h3 a4 h4 a5 h5 hc0 hc1 x0 x1 xs0 xs1)]
  unfold kernelRun0_B
  dsimp only
  sl_unfold_words
  rw [View.canon_unit_zero hz]
  simp only [View.readAt_eq_ld, h1.read_unread, h2.read_unread, h4.read_unread, h5.read_unread,
    View.ld_unit_zero (S := S10000x256) hz, View.ld_unit_zero (S := S10000x20) hz, View.ld_unit_zero (S := S1x1) hz,
    View.ld_unit_zero (S := S256x20) hz, View.readCov_unit_zero (S := S1x1) _ hz, View.readCov_unit_zero (S := S256x20) _ hz]

/-! ## The last tile: the same two updates, and the result from the updated totals -/

theorem sc0_C (c : Dev nD) (i : grid0.Coords) (a1 : Memref sig .tc .vmem S10000x256 .f32) (h1 : a1.IsWhole) (a2 : Memref sig .tc .vmem S10000x20 .f32) (h2 : a2.IsWhole) (a3 : Memref sig .tc .vmem S1x1 .f32) (h3 : a3.IsWhole) (a4 : Memref sig .tc .vmem S1x1 .f32) (h4 : a4.IsWhole) (a5 : Memref sig .tc .vmem S256x20 .f32) (h5 : a5.IsWhole) (hc0 : ¬cond0_0 i) (hc1 : cond0_1 i) (x0 : Vec F S10000x256 .f32) (x1 : Vec F S10000x20 .f32) (xs0 : Vec F S1x1 .f32) (xs1 : Vec F S256x20 .f32) :
    sout0_C_0 c i a1 h1 a2 h2 a3 h3 a4 h4 a5 h5 hc0 hc1 x0 x1 xs0 xs1 = k0_pay3 x0 xs0 := by
  unfold sout0_C_0
  rw [View.read_writes_eq_canon _ _ _ (scover0_C_0 c i a1 h1 a2 h2 a3 h3 a4 h4 a5 h5 hc0 hc1 x0 x1 xs0 xs1)]
  unfold kernelRun0_C
  dsimp only
  sl_unfold_words
  rw [View.canon_unit_zero hz]
  simp only [View.readAt_eq_ld, h1.read_unread, h2.read_unread, h4.read_unread, h5.read_unread,
    View.ld_unit_zero (S := S10000x256) hz, View.ld_unit_zero (S := S10000x20) hz, View.ld_unit_zero (S := S1x1) hz,
    View.ld_unit_zero (S := S256x20) hz, View.readCov_unit_zero (S := S1x1) _ hz, View.readCov_unit_zero (S := S256x20) _ hz]

theorem sc1_C (c : Dev nD) (i : grid0.Coords) (a1 : Memref sig .tc .vmem S10000x256 .f32) (h1 : a1.IsWhole) (a2 : Memref sig .tc .vmem S10000x20 .f32) (h2 : a2.IsWhole) (a3 : Memref sig .tc .vmem S1x1 .f32) (h3 : a3.IsWhole) (a4 : Memref sig .tc .vmem S1x1 .f32) (h4 : a4.IsWhole) (a5 : Memref sig .tc .vmem S256x20 .f32) (h5 : a5.IsWhole) (hc0 : ¬cond0_0 i) (hc1 : cond0_1 i) (x0 : Vec F S10000x256 .f32) (x1 : Vec F S10000x20 .f32) (xs0 : Vec F S1x1 .f32) (xs1 : Vec F S256x20 .f32) :
    sout0_C_1 c i a1 h1 a2 h2 a3 h3 a4 h4 a5 h5 hc0 hc1 x0 x1 xs0 xs1 = k0_pay4 x0 x1 xs1 := by
  unfold sout0_C_1
  rw [View.read_writes_eq_canon _ _ _ (scover0_C_1 c i a1 h1 a2 h2 a3 h3 a4 h4 a5 h5 hc0 hc1 x0 x1 xs0 xs1)]
  unfold kernelRun0_C
  dsimp only
  sl_unfold_words
  rw [View.canon_unit_zero hz]
  simp only [View.readAt_eq_ld, h1.read_unread, h2.read_unread, h4.read_unread, h5.read_unread,
    View.ld_unit_zero (S := S10000x256) hz, View.ld_unit_zero (S := S10000x20) hz, View.ld_unit_zero (S := S1x1) hz,
    View.ld_unit_zero (S := S256x20) hz, View.readCov_unit_zero (S := S1x1) _ hz, View.readCov_unit_zero (S := S256x20) _ hz]

theorem out_C (c : Dev nD) (i : grid0.Coords) (a1 : Memref sig .tc .vmem S10000x256 .f32) (h1 : a1.IsWhole) (a2 : Memref sig .tc .vmem S10000x20 .f32) (h2 : a2.IsWhole) (a3 : Memref sig .tc .vmem S1x1 .f32) (h3 : a3.IsWhole) (a4 : Memref sig .tc .vmem S1x1 .f32) (h4 : a4.IsWhole) (a5 : Memref sig .tc .vmem S256x20 .f32) (h5 : a5.IsWhole) (hc0 : ¬cond0_0 i) (hc1 : cond0_1 i) (x0 : Vec F S10000x256 .f32) (x1 : Vec F S10000x20 .f32) (xs0 : Vec F S1x1 .f32) (xs1 : Vec F S256x20 .f32) :
    out0_C_2 c i a1 h1 a2 h2 a3 h3 a4 h4 a5 h5 hc0 hc1 x0 x1 xs0 xs1 = k0_pay5 (k0_pay4 x0 x1 xs1) (k0_pay3 x0 xs0) := by
  unfold out0_C_2
  rw [View.read_writes_eq_canon _ _ _ (cover0_C_2 c i a1 h1 a2 h2 a3 h3 a4 h4 a5 h5 hc0 hc1 x0 x1 xs0 xs1)]
  unfold kernelRun0_C
  dsimp only
  sl_unfold_words
  rw [View.canon_unit_zero hz]
  simp only [View.readAt_eq_ld, h1.read_unread, h2.read_unread, h4.read_unread, h5.read_unread,
    View.ld_unit_zero (S := S10000x256) hz, View.ld_unit_zero (S := S10000x20) hz, View.ld_unit_zero (S := S1x1) hz,
    View.ld_unit_zero (S := S256x20) hz, View.readCov_unit_zero (S := S1x1) _ hz, View.readCov_unit_zero (S := S256x20) _ hz]

end Cert.KernelIdeal.KValue
-- ==== Proof.ReduceRead.lean ====
/-
  A handful of operations read at an index, over the extended reals.

  * a [1, 1] array has one index;
  * the lane sum of an [a, b] matrix at row `r` is `Σ_c w(r, c)`;
  * the sum down the one column of an [a, 1] matrix is `Σ_r w(r, 0)`;
  * re-laying an [a] vector as an [a, 1] column moves nothing: entry (r, 0) is entry r.

  Together: summing a matrix's lanes, standing the result up as a column and summing that column is the sum of
  every entry, row by row.
-/
import Idealize.ShloMosaic.Lib.ValueIdx
import Idealize.ShloMosaic.Lib.Pipeline.Value
import Idealize.ShloMosaic.PureOps.Ideal.Laws

open scoped BigOperators

noncomputable section

namespace Cert.ReduceRead

open Idealize.ShloMosaic Idealize.ShloMosaic.ValueIdx

/-- The one index of a [1, 1] array. -/
theorem idx11 (y : (⟨2, ![1, 1]⟩ : Shape).Idx) : y = ix2 (0 : Fin 1) (0 : Fin 1) := by
  have h0 : y 0 = (0 : Fin 1) := Fin.ext (by have := idx2_lt0 y; show (y 0).val = 0; omega)
  have h1 : y 1 = (0 : Fin 1) := Fin.ext (by have := idx2_lt1 y; show (y 1).val = 0; omega)
  exact (eq_ix2 y).trans (congrArg₂ (ix2 (n0 := 1) (n1 := 1)) h0 h1)

/-- The lane sum of a matrix, at row `r`. -/
theorem laneSum {a b : ℕ} (w : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ w 0x00000000#32 h hφ hacc (ix1 r) = ∑ c : Fin b, w (ix2 r c) := by
  refine (Ideal.multiReduction_add_single w _ h hφ hacc (ix1 r)).trans ?_
  refine Finset.sum_congr rfl fun c _ => congrArg w (funext fun i => Fin.ext ?_)
  match i with
  | ⟨0, _⟩ => rfl
  | ⟨1, _⟩ => rfl

/-- The sum down a one-column matrix. -/
theorem colSum {a : ℕ} (w : FVec Ideal ⟨2, ![a, 1]⟩ .f32) (h : Shape.Reduces ⟨2, ![a, 1]⟩ [0] ⟨1, ![1]⟩)
    (hφ : FKind.Formats .f32) (hacc : (0x00000000#32 : BitVec 32) = FKind.add.neutral .f32 hφ) (u : Fin 1) :
    multiReduction .add [0] ⟨1, ![1]⟩ w 0x00000000#32 h hφ hacc (ix1 u) = ∑ r : Fin a, w (ix2 r u) := by
  refine (Ideal.multiReduction_add_single w _ h hφ hacc (ix1 u)).trans ?_
  refine Finset.sum_congr rfl fun r _ => congrArg w (funext fun i => Fin.ext ?_)
  match i with
  | ⟨0, _⟩ => rfl
  | ⟨1, _⟩ => rfl

/-- An [a] vector stood up as an [a, 1] column: entry (r, 0) is entry r. -/
theorem castCol {α : Type} {a : ℕ} (v : (⟨1, ![a]⟩ : Shape).Idx → α) (h : (⟨1, ![a]⟩ : Shape).ShapeCasts ⟨2, ![a, 1]⟩)
    (r : Fin a) (u : Fin 1) : shapeCast ⟨2, ![a, 1]⟩ v h (ix2 r u) = v (ix1 r) := by
  refine shapeCast_apply v h (ix2 r u) (ix1 r) ?_
  rw [Shape.rowMajor_val_one, Shape.rowMajor_val_two]
  show r.val = r.val * 1 + u.val
  omega

/-- So: the lanes summed, the sums stood up as a column, the column summed — every entry, row by row. -/
theorem totalSum {a b : ℕ} (w : FVec Ideal ⟨2, ![a, b]⟩ .f32)
    (h1 : Shape.Reduces ⟨2, ![a, b]⟩ [1] ⟨1, ![a]⟩) (hc : (⟨1, ![a]⟩ : Shape).ShapeCasts ⟨2, ![a, 1]⟩)
    (h0 : Shape.Reduces ⟨2, ![a, 1]⟩ [0] ⟨1, ![1]⟩)
    (hφ : FKind.Formats .f32) (hacc : (0x00000000#32 : BitVec 32) = FKind.add.neutral .f32 hφ)
    (hφ' : FKind.Formats .f32) (hacc' : (0x00000000#32 : BitVec 32) = FKind.add.neutral .f32 hφ') (u : Fin 1) :
    multiReduction .add [0] ⟨1, ![1]⟩
        (shapeCast ⟨2, ![a, 1]⟩ (multiReduction .add [1] ⟨1, ![a]⟩ w 0x00000000#32 h1 hφ hacc) hc) 0x00000000#32 h0 hφ' hacc' (ix1 u)
      = ∑ r : Fin a, ∑ c : Fin b, w (ix2 r c) := by
  refine (colSum _ h0 hφ' hacc' u).trans ?_
  refine Finset.sum_congr rfl fun r _ => ?_
  exact (castCol _ hc r u).trans (laneSum w h1 hφ hacc r)

end Cert.ReduceRead
-- ==== Proof.Payloads.lean ====
/-
  The kernel body's five stored values, read at an index over the extended reals.

  With `x` the tile of `z` ([10000, 256]), `q` the tile of `p` ([10000, 20]), `s` the [1, 1] running total of squares and
  `g` the [256, 20] running total of products as the body finds them:

  * the two resets store zeros;
  * the new `s` is `s + Σ_r Σ_c x(r,c)·x(r,c)` (lane sums, stood up as a column, summed);
  * the new `g` at (d, k) is `g(d,k) + Σ_r x(r,d)·q(r,k)` (the product contracts the ROW axis of both tiles, into a
    zero accumulator);
  * the result is `s − Σ_d Σ_k g(d,k)·g(d,k)`.
-/
import proofs.«145819_j51539607552337_1_alg».proof.Proof.Gen.KernelIdeal.Skeleton
import proofs.«145819_j51539607552337_1_alg».proof.Proof.ReduceRead

open scoped BigOperators

noncomputable section

namespace Cert.KernelIdeal.KValue

open Cert.KernelIdeal Cert.KernelIdeal.Gen Idealize.ShloMosaic Idealize.ShloMosaic.ValueIdx Cert.ReduceRead

/-! ## The tile product's operand indices -/

theorem lhs_tile_0 (i : S256x20.Idx) (q : dot_S10000x256_S10000x20_S256x20_0_0_1_1_n_n.contr.Idx) :
    (dot_S10000x256_S10000x20_S256x20_0_0_1_1_n_n.lhsIdx i q 0).val = (q ⟨0, by decide⟩).val :=
  dot_S10000x256_S10000x20_S256x20_0_0_1_1_n_n.lhsIdx_val_of_single rfl i q
theorem lhs_tile_1 (i : S256x20.Idx) (q : dot_S10000x256_S10000x20_S256x20_0_0_1_1_n_n.contr.Idx) :
    (dot_S10000x256_S10000x20_S256x20_0_0_1_1_n_n.lhsIdx i q 1).val = (i 0).val := by
  unfold DotDims.lhsIdx
  rw [dif_neg (show ¬(1 : Fin S10000x256.rank) ∈ dot_S10000x256_S10000x20_S256x20_0_0_1_1_n_n.lhsBatch by decide), dif_pos (show (1 : Fin S10000x256.rank) ∈ dot_S10000x256_S10000x20_S256x20_0_0_1_1_n_n.lhsNonContracting by decide)]
  rfl
theorem rhs_tile_0 (i : S256x20.Idx) (q : dot_S10000x256_S10000x20_S256x20_0_0_1_1_n_n.contr.Idx) :
    (dot_S10000x256_S10000x20_S256x20_0_0_1_1_n_n.rhsIdx i q 0).val = (q ⟨0, by decide⟩).val :=
  dot_S10000x256_S10000x20_S256x20_0_0_1_1_n_n.rhsIdx_val_of_single rfl i q
theorem rhs_tile_1 (i : S256x20.Idx) (q : dot_S10000x256_S10000x20_S256x20_0_0_1_1_n_n.contr.Idx) :
    (dot_S10000x256_S10000x20_S256x20_0_0_1_1_n_n.rhsIdx i q 1).val = (i 1).val := by
  unfold DotDims.rhsIdx
  rw [dif_neg (show ¬(1 : Fin S10000x20.rank) ∈ dot_S10000x256_S10000x20_S256x20_0_0_1_1_n_n.rhsBatch by decide), dif_pos (show (1 : Fin S10000x20.rank) ∈ dot_S10000x256_S10000x20_S256x20_0_0_1_1_n_n.rhsNonContracting by decide)]
  rfl

/-- The tile product into a zero accumulator, at (d, k): `Σ_r x(r,d)·q(r,k)`. -/
theorem tileDot (x : FVec Ideal S10000x256 .f32) (q : FVec Ideal S10000x20 .f32) (d : Fin 256) (k : Fin 20) :
    matmul dot_S10000x256_S10000x20_S256x20_0_0_1_1_n_n none x q (constant S256x20 .f32 0x00000000#32) (ix2 d k)
      = ∑ r : Fin 10000, x (ix2 r d) * q (ix2 r k) := by
  refine (Ideal.matmul_constant_zero_apply dot_S10000x256_S10000x20_S256x20_0_0_1_1_n_n none x q (ix2 d k)).trans ?_
  rw [← Equiv.sum_comp (ValueIdx.contrEquiv1 dot_S10000x256_S10000x20_S256x20_0_0_1_1_n_n 10000 rfl rfl).symm]
  refine Finset.sum_congr rfl fun r _ => ?_
  have hr := ValueIdx.contrEquiv1_symm_val dot_S10000x256_S10000x20_S256x20_0_0_1_1_n_n 10000 rfl rfl r
  have el : dot_S10000x256_S10000x20_S256x20_0_0_1_1_n_n.lhsIdx (ix2 d k) ((ValueIdx.contrEquiv1 dot_S10000x256_S10000x20_S256x20_0_0_1_1_n_n 10000 rfl rfl).symm r) = ix2 r d := funext fun a => Fin.ext (by
    match a with
    | ⟨0, _⟩ => exact (lhs_tile_0 _ _).trans hr
    | ⟨1, _⟩ => exact lhs_tile_1 _ _)
  have er : dot_S10000x256_S10000x20_S256x20_0_0_1_1_n_n.rhsIdx (ix2 d k) ((ValueIdx.contrEquiv1 dot_S10000x256_S10000x20_S256x20_0_0_1_1_n_n 10000 rfl rfl).symm r) = ix2 r k := funext fun a => Fin.ext (by
    match a with
    | ⟨0, _⟩ => exact (rhs_tile_0 _ _).trans hr
    | ⟨1, _⟩ => exact rhs_tile_1 _ _)
  rw [el, er]

/-! ## The five stored values -/

/-- The reset of the running total of squares stores zero. -/
theorem pay1_apply (y : S1x1.Idx) : (k0_pay1 (F := Ideal)) y = 0 := by
  unfold k0_pay1
  refine (congrFun (shapeCast_self _ _) _).trans ?_
  exact Ideal.ofBits_zero_f32

/-- The reset of the running total of products stores zeros. -/
theorem pay2_apply (j : S256x20.Idx) : (k0_pay2 (F := Ideal)) j = 0 := by
  unfold k0_pay2
  refine (congrFun (shapeCast_self _ _) _).trans ?_
  exact Ideal.ofBits_zero_f32

/-- The new running total of squares. -/
theorem pay3_apply (x : Vec Ideal S10000x256 .f32) (s : Vec Ideal S1x1 .f32) (y : S1x1.Idx) :
    k0_pay3 x s y = s y + ∑ r : Fin 10000, ∑ c : Fin 256, x (ix2 r c) * x (ix2 r c) := by
  obtain rfl := idx11 y
  unfold k0_pay3
  refine (congrFun (shapeCast_self _ _) _).trans ?_
  refine congrArg (s (ix2 (0 : Fin 1) (0 : Fin 1)) + ·) ?_
  refine (castCol _ shapeCasts_S1_S1x1 (0 : Fin 1) (0 : Fin 1)).trans ?_
  exact totalSum (mulf x x) reduces_S10000x256_S10000 shapeCasts_S10000_S10000x1 reduces_S10000x1_S1 _ _ _ _ (0 : Fin 1)

/-- The new running total of products, at (d, k). -/
theorem pay4_apply (x : Vec Ideal S10000x256 .f32) (q : Vec Ideal S10000x20 .f32) (g : Vec Ideal S256x20 .f32)
    (d : Fin 256) (k : Fin 20) :
    k0_pay4 x q g (ix2 d k) = g (ix2 d k) + ∑ r : Fin 10000, x (ix2 r d) * q (ix2 r k) := by
  unfold k0_pay4
  refine (congrFun (shapeCast_self _ _) _).trans ?_
  exact congrArg (g (ix2 d k) + ·) (tileDot x q d k)

/-- The result: the total of squares minus the squares of the products' totals. -/
theorem pay5_apply (g : Vec Ideal S256x20 .f32) (s : Vec Ideal S1x1 .f32) (y : S1x1.Idx) :
    k0_pay5 g s y = s y - ∑ d : Fin 256, ∑ k : Fin 20, g (ix2 d k) * g (ix2 d k) := by
  obtain rfl := idx11 y
  unfold k0_pay5
  refine congrArg (s (ix2 (0 : Fin 1) (0 : Fin 1)) - ·) ?_
  refine (castCol _ shapeCasts_S1_S1x1 (0 : Fin 1) (0 : Fin 1)).trans ?_
  exact totalSum (mulf g g) reduces_S256x20_S256 shapeCasts_S256_S256x1 reduces_S256x1_S1 _ _ _ _ (0 : Fin 1)

end Cert.KernelIdeal.KValue
-- ==== Proof.TileSums.lean ====
/-
  The arithmetic of the row tiling, with no program in sight.

  The 200000 rows are cut into 20 tiles of 10000 consecutive rows: row `r` of tile `t` is row `10000 t + r`.
  Over a commutative monoid (the extended reals under `+` are one) a sum over all rows is the sum over the tiles of
  the sums over each tile's rows (`sum_rows`), and an accumulator that starts at the first tile's term and adds one
  tile's term per step holds, after step `n`, the sum of the terms of tiles `0 … n` (`upto`), which after the last
  step is the sum over all tiles (`upto_last`). Only commutativity and associativity of `+` are used: nothing here
  needs the summands to be finite.
-/
import Idealize.ShloMosaic.Lib.ValueIdx

open scoped BigOperators

namespace Cert.TileSums

variable {M : Type*} [AddCommMonoid M]

/-- Row `r` of tile `t`, as a row of the whole array. -/
def row (t : Fin 20) (r : Fin 10000) : Fin 200000 := ⟨10000 * t.val + r.val, by omega⟩

@[simp] theorem row_val (t : Fin 20) (r : Fin 10000) : (row t r).val = 10000 * t.val + r.val := rfl

/-- Every row lies in exactly one tile, at exactly one place. -/
def rowEquiv : Fin 20 × Fin 10000 ≃ Fin 200000 where
  toFun x := row x.1 x.2
  invFun n := (⟨n.val / 10000, by omega⟩, ⟨n.val % 10000, by omega⟩)
  left_inv x := by
    obtain ⟨t, r⟩ := x
    refine Prod.ext (Fin.ext ?_) (Fin.ext ?_)
    · show (10000 * t.val + r.val) / 10000 = t.val
      omega
    · show (10000 * t.val + r.val) % 10000 = r.val
      omega
  right_inv n := by
    apply Fin.ext
    show 10000 * (n.val / 10000) + n.val % 10000 = n.val
    omega

/-- A sum over all rows, tile by tile. -/
theorem sum_rows (f : Fin 200000 → M) : ∑ n, f n = ∑ t : Fin 20, ∑ r : Fin 10000, f (row t r) := by
  rw [← Equiv.sum_comp rowEquiv f, Fintype.sum_prod_type]
  rfl

/-- A per-tile term, continued by zero past the last tile. -/
def ext (g : Fin 20 → M) (i : ℕ) : M := if h : i < 20 then g ⟨i, h⟩ else 0

theorem ext_of_lt (g : Fin 20 → M) (i : ℕ) (h : i < 20) : ext g i = g ⟨i, h⟩ := dif_pos h

/-- The sum of the terms of tiles `0 … n`. -/
def upto (g : Fin 20 → M) (n : ℕ) : M := ∑ i ∈ Finset.range (n + 1), ext g i

theorem upto_zero (g : Fin 20 → M) : upto g 0 = g ⟨0, by omega⟩ := by
  unfold upto
  rw [Finset.sum_range_one, ext_of_lt g 0 (by omega)]

theorem upto_succ (g : Fin 20 → M) (n : ℕ) (h : n + 1 < 20) : upto g (n + 1) = upto g n + g ⟨n + 1, h⟩ := by
  unfold upto
  rw [Finset.sum_range_succ, ext_of_lt g (n + 1) h]

/-- After the last tile: the sum over all tiles. -/
theorem upto_last (g : Fin 20 → M) : upto g 19 = ∑ t : Fin 20, g t := by
  unfold upto
  rw [Finset.sum_range]
  exact Finset.sum_congr rfl fun t _ => (ext_of_lt g t.val t.isLt).trans (congrArg g (Fin.ext rfl))

end Cert.TileSums
-- ==== Proof.Spec.lean ====
/-
  What both programs compute, as one function of the two argument arrays over the extended reals.

  With `z` the [200000, 256] array and `p` the [200000, 20] array,

      loss z p = Σₙ Σ_c z(n,c)·z(n,c)  −  Σ_d Σ_k ( Σₙ z(n,d)·p(n,k) )²

  — the squared Frobenius norm of `z` minus that of `zᵀp`. The row sums `Σₙ` are also written tile by tile
  (`sqAll_eq_tiles`, `dotAll_eq_tiles`): the kernel walks the rows in 20 tiles of 10000 and keeps one running
  total of the squares and one [256, 20] running total of the products. Regrouping a finite sum uses only that `+`
  on the extended reals is commutative and associative; no summand has to be finite.
-/
import Idealize.ShloMosaic.Lib.ValueIdx
import proofs.«145819_j51539607552337_1_alg».proof.Proof.TileSums

open scoped BigOperators

noncomputable section

namespace Cert.Spec

open Idealize.ShloMosaic Idealize.ShloMosaic.ValueIdx Cert.TileSums

/-- The [200000, 256] array and the [200000, 20] array, as functions of their indices. -/
abbrev ZArr := (⟨2, ![200000, 256]⟩ : Shape).Idx → EReal
abbrev PArr := (⟨2, ![200000, 20]⟩ : Shape).Idx → EReal

/-- The squares of one tile's entries, summed. -/
def sqTile (z : ZArr) (t : Fin 20) : EReal :=
  ∑ r : Fin 10000, ∑ c : Fin 256, z (ix2 (row t r) c) * z (ix2 (row t r) c)

/-- One tile's share of entry (d, k) of `zᵀp`. -/
def dotTile (z : ZArr) (p : PArr) (d : Fin 256) (k : Fin 20) (t : Fin 20) : EReal :=
  ∑ r : Fin 10000, z (ix2 (row t r) d) * p (ix2 (row t r) k)

/-- All squares, summed row by row. -/
def sqAll (z : ZArr) : EReal := ∑ n : Fin 200000, ∑ c : Fin 256, z (ix2 n c) * z (ix2 n c)

/-- Entry (d, k) of `zᵀp`. -/
def dotAll (z : ZArr) (p : PArr) (d : Fin 256) (k : Fin 20) : EReal := ∑ n : Fin 200000, z (ix2 n d) * p (ix2 n k)

/-- The result. -/
def loss (z : ZArr) (p : PArr) : EReal :=
  sqAll z - ∑ d : Fin 256, ∑ k : Fin 20, dotAll z p d k * dotAll z p d k

theorem sqAll_eq_tiles (z : ZArr) : sqAll z = ∑ t : Fin 20, sqTile z t :=
  sum_rows fun n => ∑ c : Fin 256, z (ix2 n c) * z (ix2 n c)

theorem dotAll_eq_tiles (z : ZArr) (p : PArr) (d : Fin 256) (k : Fin 20) : dotAll z p d k = ∑ t : Fin 20, dotTile z p d k t :=
  sum_rows fun n => z (ix2 n d) * p (ix2 n k)

/-- After the last tile the two running totals are the whole sums. -/
theorem upto_sq_last (z : ZArr) : upto (sqTile z) 19 = sqAll z :=
  (upto_last _).trans (sqAll_eq_tiles z).symm

theorem upto_dot_last (z : ZArr) (p : PArr) (d : Fin 256) (k : Fin 20) : upto (dotTile z p d k) 19 = dotAll z p d k :=
  (upto_last _).trans (dotAll_eq_tiles z p d k).symm

end Cert.Spec
-- ==== Proof.Running.lean ====
/-
  The two running totals after each tile, and the value the last tile stores.

  Tile `t`'s blocks are rows `10000 t … 10000 t + 9999` of the two arrays (`zblk_apply`, `pblk_apply`). By induction
  on the tile, after tile `n` the [1, 1] total holds `Σ_{t ≤ n}` of the tiles' sums of squares and entry (d, k) of the
  [256, 20] total holds `Σ_{t ≤ n}` of the tiles' shares of `(zᵀp)(d, k)` (`running`): the first tile adds its term to
  a zero, every later tile adds its term to what the tile before left. The last tile then stores the first total
  minus the sum of the squares of the second's entries, which, the totals being complete, is the loss
  (`last_value`).
-/
import proofs.«145819_j51539607552337_1_alg».proof.Proof.Pieces
import proofs.«145819_j51539607552337_1_alg».proof.Proof.Payloads
import proofs.«145819_j51539607552337_1_alg».proof.Proof.Spec

set_option maxRecDepth 16384

open scoped BigOperators

noncomputable section

namespace Cert.KernelIdeal.KValue

open Cert.KernelIdeal Cert.KernelIdeal.Gen Idealize.ShloMosaic Idealize.ShloMosaic.TcCoe Idealize.SL.Sem
open Idealize.ShloMosaic.ValueIdx Cert.ReduceRead Cert.TileSums Cert.Spec

variable (m : (ℓ : Loc nD τ sig) → Buf (Elt Ideal) ℓ)

/-- The two arrays as the region finds them, and the two blocks of tile `t`, at their literal types. -/
abbrev zarr (c : Dev nD) : Vec Ideal S200000x256 .f32 := V m c main_arg0
abbrev parr (c : Dev nD) : Vec Ideal S200000x20 .f32 := V m c main_arg1
abbrev zblk (c : Dev nD) (t : Fin cfg0.N) : Vec Ideal S10000x256 .f32 := iblk m c 0 t
abbrev pblk (c : Dev nD) (t : Fin cfg0.N) : Vec Ideal S10000x20 .f32 := iblk m c 1 t

/-- A grid point as a tile number. -/
abbrev tileOf (t : Fin cfg0.N) : Fin 20 := ⟨t.val, lt_of_lt_of_eq t.isLt N_0⟩

/-- Both input windows step down the rows with the grid point and stay in column block 0. -/
theorem idx_facts : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)

/-- Tile `t`'s block of `z` at (r, d) is `z` at row `10000 t + r`. -/
theorem zblk_apply (c : Dev nD) (t : Fin cfg0.N) (r : Fin 10000) (d : Fin 256) :
    zblk m c t (ix2 r d) = zarr m c (ix2 (row (tileOf t) r) d) := by
  show iblk m c 0 t (ix2 r d) = _
  unfold iblk
  rw [View.read_apply]
  show V m c main_arg0 _ = V m c main_arg0 _
  refine congrArg (V m c main_arg0) (funext fun a => Fin.ext ?_)
  match a with
  | ⟨0, _⟩ =>
    show win0_0.index t 0 * 10000 + 1 * r.val = 10000 * t.val + r.val
    rw [(idx_facts t).1]; omega
  | ⟨1, _⟩ =>
    show win0_0.index t 1 * 256 + 1 * d.val = d.val
    rw [(idx_facts t).2.1]; omega

/-- Tile `t`'s block of `p` at (r, k) is `p` at row `10000 t + r`. -/
theorem pblk_apply (c : Dev nD) (t : Fin cfg0.N) (r : Fin 10000) (k : Fin 20) :
    pblk m c t (ix2 r k) = parr m c (ix2 (row (tileOf t) r) k) := by
  show iblk m c 1 t (ix2 r k) = _
  unfold iblk
  rw [View.read_apply]
  show V m c main_arg1 _ = V m c main_arg1 _
  refine congrArg (V m c main_arg1) (funext fun a => Fin.ext ?_)
  match a with
  | ⟨0, _⟩ =>
    show win0_1.index t 0 * 10000 + 1 * r.val = 10000 * t.val + r.val
    rw [(idx_facts t).2.2.1]; omega
  | ⟨1, _⟩ =>
    show win0_1.index t 1 * 20 + 1 * k.val = k.val
    rw [(idx_facts t).2.2.2]; omega

/-- One update of the total of squares: a total `T` becomes `T` plus tile `t`'s sum of squares. -/
theorem sq_step (zz : ZArr) (t : Fin 20) (x : Vec Ideal S10000x256 .f32)
    (hx : ∀ r c, x (ix2 r c) = zz (ix2 (row t r) c)) (s : Vec Ideal S1x1 .f32) (T : EReal) (hs : ∀ y, s y = T)
    (y : S1x1.Idx) : k0_pay3 x s y = T + sqTile zz t := by
  rw [pay3_apply, hs y]
  refine congrArg (T + ·) ?_
  unfold sqTile
  exact Finset.sum_congr rfl fun r _ => Finset.sum_congr rfl fun c _ => by rw [hx r c]

/-- One update of the total of products at (d, k): `T` becomes `T` plus tile `t`'s share. -/
theorem dot_step (zz : ZArr) (pp : PArr) (t : Fin 20) (x : Vec Ideal S10000x256 .f32)
    (hx : ∀ r c, x (ix2 r c) = zz (ix2 (row t r) c)) (q : Vec Ideal S10000x20 .f32)
    (hq : ∀ r k, q (ix2 r k) = pp (ix2 (row t r) k)) (g : Vec Ideal S256x20 .f32) (d : Fin 256) (k : Fin 20)
    (T : EReal) (hg : g (ix2 d k) = T) : k0_pay4 x q g (ix2 d k) = T + dotTile zz pp d k t := by
  rw [pay4_apply, hg]
  refine congrArg (T + ·) ?_
  unfold dotTile
  exact Finset.sum_congr rfl fun r _ => by rw [hx r d, hq r k]

/-- After tile `n`: the total of squares is the sum over tiles `0 … n`, and so is every entry of the total of products. -/
theorem running (c : Dev nD) : ∀ (n : ℕ) (hn : n < cfg0.N),
    (∀ y, (outsAt0 m c n hn).2.1 y = upto (sqTile (zarr m c)) n)
    ∧ (∀ d k, (outsAt0 m c n hn).2.2 (ix2 d k) = upto (dotTile (zarr m c) (parr m c) d k) n)
  | 0, hn => by
    have h0 : (⟨0, hn⟩ : Fin cfg0.N).val % 20 = 0 := rfl
    have h1 : ¬(⟨0, hn⟩ : Fin cfg0.N).val % 20 = 19 := by show ¬(0 : ℕ) % 20 = 19; decide
    rw [outsAt0_A m c (⟨0, hn⟩ : Fin cfg0.N) h0 h1]
    dsimp only
    refine ⟨fun y => ?_, fun d k => ?_⟩
    · refine (congrFun (sc0_A (F := Ideal) c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) scM0_0 (Memref.isWhole_whole _) scM0_1 (Memref.isWhole_whole _) ((hcond0_0 (⟨0, hn⟩ : Fin cfg0.N)).mpr h0) (fun h => h1 ((hcond0_1 (⟨0, hn⟩ : Fin cfg0.N)).mp h)) (zblk m c (⟨0, hn⟩ : Fin cfg0.N)) (pblk m c (⟨0, hn⟩ : Fin cfg0.N))) y).trans ?_
      rw [upto_zero]
      exact (sq_step (zarr m c) ⟨0, by omega⟩ (zblk m c (⟨0, hn⟩ : Fin cfg0.N)) (zblk_apply m c (⟨0, hn⟩ : Fin cfg0.N)) (k0_pay1 (F := Ideal)) 0 pay1_apply y).trans (zero_add _)
    · refine (congrFun (sc1_A (F := Ideal) c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) scM0_0 (Memref.isWhole_whole _) scM0_1 (Memref.isWhole_whole _) ((hcond0_0 (⟨0, hn⟩ : Fin cfg0.N)).mpr h0) (fun h => h1 ((hcond0_1 (⟨0, hn⟩ : Fin cfg0.N)).mp h)) (zblk m c (⟨0, hn⟩ : Fin cfg0.N)) (pblk m c (⟨0, hn⟩ : Fin cfg0.N))) (ix2 d k)).trans ?_
      rw [upto_zero]
      exact (dot_step (zarr m c) (parr m c) ⟨0, by omega⟩ (zblk m c (⟨0, hn⟩ : Fin cfg0.N)) (zblk_apply m c (⟨0, hn⟩ : Fin cfg0.N)) (pblk m c (⟨0, hn⟩ : Fin cfg0.N)) (pblk_apply m c (⟨0, hn⟩ : Fin cfg0.N)) (k0_pay2 (F := Ideal)) d k 0 (pay2_apply _)).trans (zero_add _)
  | n + 1, hn => by
    have hn' : n + 1 < 20 := lt_of_lt_of_eq hn N_0
    obtain ⟨ih0, ih1⟩ := running c n (Nat.lt_of_succ_lt hn)
    have h0 : ¬(⟨n + 1, hn⟩ : Fin cfg0.N).val % 20 = 0 := by dsimp only; omega
    by_cases h1 : (⟨n + 1, hn⟩ : Fin cfg0.N).val % 20 = 19
    · rw [outsAt0_C m c (⟨n + 1, hn⟩ : Fin cfg0.N) h0 h1]
      dsimp only
      refine ⟨fun y => ?_, fun d k => ?_⟩
      · refine (congrFun (sc0_C (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) scM0_0 (Memref.isWhole_whole _) scM0_1 (Memref.isWhole_whole _) (fun h => h0 ((hcond0_0 (⟨n + 1, hn⟩ : Fin cfg0.N)).mp h)) ((hcond0_1 (⟨n + 1, hn⟩ : Fin cfg0.N)).mpr h1) (zblk m c (⟨n + 1, hn⟩ : Fin cfg0.N)) (pblk m c (⟨n + 1, hn⟩ : Fin cfg0.N)) (outsAt0 m c ((⟨n + 1, hn⟩ : Fin cfg0.N).val - 1) (Nat.lt_of_le_of_lt (Nat.sub_le _ _) (⟨n + 1, hn⟩ : Fin cfg0.N).isLt)).2.1 (outsAt0 m c ((⟨n + 1, hn⟩ : Fin cfg0.N).val - 1) (Nat.lt_of_le_of_lt (Nat.sub_le _ _) (⟨n + 1, hn⟩ : Fin cfg0.N).isLt)).2.2) y).trans ?_
        rw [upto_succ _ n hn']
        exact sq_step (zarr m c) ⟨n + 1, hn'⟩ (zblk m c (⟨n + 1, hn⟩ : Fin cfg0.N)) (zblk_apply m c (⟨n + 1, hn⟩ : Fin cfg0.N)) _ _ ih0 y
      · refine (congrFun (sc1_C (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) scM0_0 (Memref.isWhole_whole _) scM0_1 (Memref.isWhole_whole _) (fun h => h0 ((hcond0_0 (⟨n + 1, hn⟩ : Fin cfg0.N)).mp h)) ((hcond0_1 (⟨n + 1, hn⟩ : Fin cfg0.N)).mpr h1) (zblk m c (⟨n + 1, hn⟩ : Fin cfg0.N)) (pblk m c (⟨n + 1, hn⟩ : Fin cfg0.N)) (outsAt0 m c ((⟨n + 1, hn⟩ : Fin cfg0.N).val - 1) (Nat.lt_of_le_of_lt (Nat.sub_le _ _) (⟨n + 1, hn⟩ : Fin cfg0.N).isLt)).2.1 (outsAt0 m c ((⟨n + 1, hn⟩ : Fin cfg0.N).val - 1) (Nat.lt_of_le_of_lt (Nat.sub_le _ _) (⟨n + 1, hn⟩ : Fin cfg0.N).isLt)).2.2) (ix2 d k)).trans ?_
        rw [upto_succ _ n hn']
        exact dot_step (zarr m c) (parr m c) ⟨n + 1, hn'⟩ (zblk m c (⟨n + 1, hn⟩ : Fin cfg0.N)) (zblk_apply m c (⟨n + 1, hn⟩ : Fin cfg0.N)) (pblk m c (⟨n + 1, hn⟩ : Fin cfg0.N)) (pblk_apply m c (⟨n + 1, hn⟩ : Fin cfg0.N)) _ d k _ (ih1 d k)
    · rw [outsAt0_B m c (⟨n + 1, hn⟩ : Fin cfg0.N) h0 h1]
      dsimp only
      refine ⟨fun y => ?_, fun d k => ?_⟩
      · refine (congrFun (sc0_B (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) scM0_0 (Memref.isWhole_whole _) scM0_1 (Memref.isWhole_whole _) (fun h => h0 ((hcond0_0 (⟨n + 1, hn⟩ : Fin cfg0.N)).mp h)) (fun h => h1 ((hcond0_1 (⟨n + 1, hn⟩ : Fin cfg0.N)).mp h)) (zblk m c (⟨n + 1, hn⟩ : Fin cfg0.N)) (pblk m c (⟨n + 1, hn⟩ : Fin cfg0.N)) (outsAt0 m c ((⟨n + 1, hn⟩ : Fin cfg0.N).val - 1) (Nat.lt_of_le_of_lt (Nat.sub_le _ _) (⟨n + 1, hn⟩ : Fin cfg0.N).isLt)).2.1 (outsAt0 m c ((⟨n + 1, hn⟩ : Fin cfg0.N).val - 1) (Nat.lt_of_le_of_lt (Nat.sub_le _ _) (⟨n + 1, hn⟩ : Fin cfg0.N).isLt)).2.2) y).trans ?_
        rw [upto_succ _ n hn']
        exact sq_step (zarr m c) ⟨n + 1, hn'⟩ (zblk m c (⟨n + 1, hn⟩ : Fin cfg0.N)) (zblk_apply m c (⟨n + 1, hn⟩ : Fin cfg0.N)) _ _ ih0 y
      · refine (congrFun (sc1_B (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) scM0_0 (Memref.isWhole_whole _) scM0_1 (Memref.isWhole_whole _) (fun h => h0 ((hcond0_0 (⟨n + 1, hn⟩ : Fin cfg0.N)).mp h)) (fun h => h1 ((hcond0_1 (⟨n + 1, hn⟩ : Fin cfg0.N)).mp h)) (zblk m c (⟨n + 1, hn⟩ : Fin cfg0.N)) (pblk m c (⟨n + 1, hn⟩ : Fin cfg0.N)) (outsAt0 m c ((⟨n + 1, hn⟩ : Fin cfg0.N).val - 1) (Nat.lt_of_le_of_lt (Nat.sub_le _ _) (⟨n + 1, hn⟩ : Fin cfg0.N).isLt)).2.1 (outsAt0 m c ((⟨n + 1, hn⟩ : Fin cfg0.N).val - 1) (Nat.lt_of_le_of_lt (Nat.sub_le _ _) (⟨n + 1, hn⟩ : Fin cfg0.N).isLt)).2.2) (ix2 d k)).trans ?_
        rw [upto_succ _ n hn']
        exact dot_step (zarr m c) (parr m c) ⟨n + 1, hn'⟩ (zblk m c (⟨n + 1, hn⟩ : Fin cfg0.N)) (zblk_apply m c (⟨n + 1, hn⟩ : Fin cfg0.N)) (pblk m c (⟨n + 1, hn⟩ : Fin cfg0.N)) (pblk_apply m c (⟨n + 1, hn⟩ : Fin cfg0.N)) _ d k _ (ih1 d k)

/-- The last tile stores, from the two totals it has just completed, the loss. -/
theorem last_value (c : Dev nD) (h19 : 19 < cfg0.N) (y : S1x1.Idx) :
    (outsAt0 m c 19 h19).1 y = loss (zarr m c) (parr m c) := by
  obtain ⟨r0, r1⟩ := running m c 19 h19
  have h0 : ¬(⟨19, h19⟩ : Fin cfg0.N).val % 20 = 0 := by show ¬(19 : ℕ) % 20 = 0; decide
  have h1 : (⟨19, h19⟩ : Fin cfg0.N).val % 20 = 19 := rfl
  have e : (outsAt0 m c 19 h19).1 = k0_pay5 (outsAt0 m c 19 h19).2.2 (outsAt0 m c 19 h19).2.1 := by
    rw [outsAt0_C m c (⟨19, h19⟩ : Fin cfg0.N) h0 h1]
    dsimp only
    exact (out_C (F := Ideal) c (grid0.coords (⟨19, h19⟩ : Fin cfg0.N)) (ms0_0 (⟨19, h19⟩ : Fin cfg0.N)) (hs0_0 (⟨19, h19⟩ : Fin cfg0.N)) (ms0_1 (⟨19, h19⟩ : Fin cfg0.N)) (hs0_1 (⟨19, h19⟩ : Fin cfg0.N)) (ms0_2 (⟨19, h19⟩ : Fin cfg0.N)) (hs0_2 (⟨19, h19⟩ : Fin cfg0.N)) scM0_0 (Memref.isWhole_whole _) scM0_1 (Memref.isWhole_whole _) (fun h => h0 ((hcond0_0 (⟨19, h19⟩ : Fin cfg0.N)).mp h)) ((hcond0_1 (⟨19, h19⟩ : Fin cfg0.N)).mpr h1) (zblk m c (⟨19, h19⟩ : Fin cfg0.N)) (pblk m c (⟨19, h19⟩ : Fin cfg0.N)) (outsAt0 m c ((⟨19, h19⟩ : Fin cfg0.N).val - 1) (Nat.lt_of_le_of_lt (Nat.sub_le _ _) (⟨19, h19⟩ : Fin cfg0.N).isLt)).2.1 (outsAt0 m c ((⟨19, h19⟩ : Fin cfg0.N).val - 1) (Nat.lt_of_le_of_lt (Nat.sub_le _ _) (⟨19, h19⟩ : Fin cfg0.N).isLt)).2.2).trans
      (congrArg₂ k0_pay5
        (sc1_C (F := Ideal) c (grid0.coords (⟨19, h19⟩ : Fin cfg0.N)) (ms0_0 (⟨19, h19⟩ : Fin cfg0.N)) (hs0_0 (⟨19, h19⟩ : Fin cfg0.N)) (ms0_1 (⟨19, h19⟩ : Fin cfg0.N)) (hs0_1 (⟨19, h19⟩ : Fin cfg0.N)) (ms0_2 (⟨19, h19⟩ : Fin cfg0.N)) (hs0_2 (⟨19, h19⟩ : Fin cfg0.N)) scM0_0 (Memref.isWhole_whole _) scM0_1 (Memref.isWhole_whole _) (fun h => h0 ((hcond0_0 (⟨19, h19⟩ : Fin cfg0.N)).mp h)) ((hcond0_1 (⟨19, h19⟩ : Fin cfg0.N)).mpr h1) (zblk m c (⟨19, h19⟩ : Fin cfg0.N)) (pblk m c (⟨19, h19⟩ : Fin cfg0.N)) (outsAt0 m c ((⟨19, h19⟩ : Fin cfg0.N).val - 1) (Nat.lt_of_le_of_lt (Nat.sub_le _ _) (⟨19, h19⟩ : Fin cfg0.N).isLt)).2.1 (outsAt0 m c ((⟨19, h19⟩ : Fin cfg0.N).val - 1) (Nat.lt_of_le_of_lt (Nat.sub_le _ _) (⟨19, h19⟩ : Fin cfg0.N).isLt)).2.2).symm
        (sc0_C (F := Ideal) c (grid0.coords (⟨19, h19⟩ : Fin cfg0.N)) (ms0_0 (⟨19, h19⟩ : Fin cfg0.N)) (hs0_0 (⟨19, h19⟩ : Fin cfg0.N)) (ms0_1 (⟨19, h19⟩ : Fin cfg0.N)) (hs0_1 (⟨19, h19⟩ : Fin cfg0.N)) (ms0_2 (⟨19, h19⟩ : Fin cfg0.N)) (hs0_2 (⟨19, h19⟩ : Fin cfg0.N)) scM0_0 (Memref.isWhole_whole _) scM0_1 (Memref.isWhole_whole _) (fun h => h0 ((hcond0_0 (⟨19, h19⟩ : Fin cfg0.N)).mp h)) ((hcond0_1 (⟨19, h19⟩ : Fin cfg0.N)).mpr h1) (zblk m c (⟨19, h19⟩ : Fin cfg0.N)) (pblk m c (⟨19, h19⟩ : Fin cfg0.N)) (outsAt0 m c ((⟨19, h19⟩ : Fin cfg0.N).val - 1) (Nat.lt_of_le_of_lt (Nat.sub_le _ _) (⟨19, h19⟩ : Fin cfg0.N).isLt)).2.1 (outsAt0 m c ((⟨19, h19⟩ : Fin cfg0.N).val - 1) (Nat.lt_of_le_of_lt (Nat.sub_le _ _) (⟨19, h19⟩ : Fin cfg0.N).isLt)).2.2).symm)
  rw [e, pay5_apply, r0 y, upto_sq_last]
  unfold loss
  refine congrArg (sqAll (zarr m c) - ·) ?_
  exact Finset.sum_congr rfl fun d _ => Finset.sum_congr rfl fun k _ => by rw [r1 d k, upto_dot_last]

end Cert.KernelIdeal.KValue
-- ==== Proof.KernelRun.lean ====
/-
  The idealized kernel's run, read: its scalar result is the loss of its two argument arrays.

  The [1, 1] output window is written back once, after the last tile, and its one block is the whole [1, 1] result
  array; what is written is the loss (`last_value`), so the array ends holding the loss at its one entry
  (`final_out`). The program then re-lays that [1, 1] array as a scalar, which moves nothing (`tail_eq`).
-/
import proofs.«145819_j51539607552337_1_alg».proof.Proof.Running
import Idealize.ShloMosaic.Lib.StableHlo.Run

set_option maxRecDepth 16384

open scoped BigOperators

noncomputable section

namespace Cert.KernelIdeal.KValue

open Cert.KernelIdeal Cert.KernelIdeal.Gen Idealize.ShloMosaic Idealize.ShloMosaic.TcCoe Idealize.SL.Sem
open Idealize.ShloMosaic.ValueIdx Cert.ReduceRead Cert.TileSums Cert.Spec
open Idealize.ShloMosaic.Pipeline (Dat)

variable (m : (ℓ : Loc nD τ sig) → Buf (Elt Ideal) ℓ) (ρ : Dev nD → PrngReg)

/-- The last grid point. -/
abbrev tLast : Fin cfg0.N := ⟨19, by rw [show cfg0.N = 20 from N_0]; decide⟩

/-- The [1, 1] result array: the loss at its one entry. -/
abbrev out11 (c : Dev nD) : Buf (Elt Ideal) ((c : Thread nD τ).loc main_v0) := fun _ => loss (zarr m c) (parr m c)

/-- The one write-back, after the last tile, writes the loss: block (0, 0) of the [1, 1] array is the array. -/
theorem flushed_eq (c : Dev nD) (t : Fin cfg0.N) (hf : (cfg0.win 2).flush t = true) :
    (dats m 0 c).flushed 2 t = ((cfg0.win 2).blk t).view.read (Elt Ideal) (out11 m c) := by
  have hN : cfg0.N = 20 := N_0
  have h19 : t.val = 19 := by have := (flush0_2 t).mp hf; have := t.isLt; omega
  obtain rfl : t = tLast := Fin.ext h19
  show (cfg0.win 2).cut (grid0.coords tLast) ((dats m 0 c).after 2 tLast) = _
  rw [after0_2]
  have e : (outsAt0 m c tLast.val tLast.isLt).1 = out11 m c := funext fun y => last_value m c tLast.isLt y
  rw [e]
  have hz' : (fun a => win0_2.index tLast a * main_v0.ty.shape.size a) = fun _ => 0 := funext fun a => by fin_cases a <;> decide
  exact (Memref.read_access_unit_zero (Elt Ideal) main_v0 hz' (fun a => by rw [congrFun hz' a]; simp) (out11 m c)).symm

/-- So the result array ends holding the loss. -/
theorem final_out (c : Dev nD) : (dats m 0 c).arrAt 2 cfg0.N = out11 m c :=
  (dats m 0 c).arrAt_eq_of_cover 2 (out11 m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 1 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 1 from by decide +kernel]; omega⟩

/-- The scalar result: the [1, 1] array re-laid as a scalar, still the loss. -/
theorem tail_eq (c : Dev nD) :
    Pipeline.afterTail₀ cfgs (dats m) 0 (V0 m) [hostOps1] c main_v1 = fun _ => loss (zarr m c) (parr m c) := by
  unfold Pipeline.afterTail₀
  show StableHlo.after hostOps1 _ (Proc.devRef .tc main_v1) = _
  after_results
  have e : Pipeline.withArrays spec0 c (V0 m c) (fun w => (dats m 0 c).arrAt w cfg0.N) (Proc.devRef .tc main_v0) = out11 m c :=
    (Pipeline.withArrays_arr spec0 launch0.win.arr_inj c _ _ 2).trans (final_out m c)
  rw [e]
  rfl

/-- The run: the scalar result at the loss of the argument arrays, the arguments unchanged. -/
theorem run : θ_run defs (onTc (τ := τ) (main (F := Ideal))) ⟨m, fun _ => 0, ρ⟩ fun r => ∀ c : Dev nD,
      r.2.mem ((c.tc : Thread nD τ).loc main_v1)
        = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue
-- ==== Proof.RefValue.lean ====
/-
  The reference computes `Cert.Spec.loss`.

  Read one operation at a time, the reference's result is
  `(0 + Σⱼ z(j)·z(j)) − (0 + Σ_{(d,k)} (Σₙ z(n,d)·p(n,k))²)`, the first and third sums over every index of a matrix.
  A sum over the indices of a matrix is the double sum over its rows and columns, the product's operand indices
  at output entry (d, k) and row n are (n, d) and (n, k), and the leading zeros drop: this is `loss z p` verbatim.
-/
import proofs.«145819_j51539607552337_1_alg».proof.Proof.Gen.ReferenceIdeal.Read
import proofs.«145819_j51539607552337_1_alg».proof.Proof.Spec

open scoped BigOperators

noncomputable section

namespace Cert.ReferenceIdeal.RefValue

open Cert.ReferenceIdeal Cert.ReferenceIdeal.Read Idealize.ShloMosaic Idealize.ShloMosaic.ValueIdx Cert.Spec

/-- At output entry (d, k) and row n the product reads `z` at (n, d) … -/
theorem lidx_eq (d : Fin 256) (k : Fin 20) (n : Fin 200000) : lidx_main_v2 (ix2 d k) n = ix2 n d :=
  funext fun a => by
    match a with
    | ⟨0, _⟩ => rfl
    | ⟨1, _⟩ => rfl

/-- … and `p` at (n, k). -/
theorem ridx_eq (d : Fin 256) (k : Fin 20) (n : Fin 200000) : ridx_main_v2 (ix2 d k) n = ix2 n k :=
  funext fun a => by
    match a with
    | ⟨0, _⟩ => rfl
    | ⟨1, _⟩ => rfl

/-- The reference's result, at its one index, is the loss. -/
theorem ref_eq_loss (z : (⟨S200000x256, .f32⟩ : BufTy).Contents (Elt Ideal)) (p : (⟨S200000x20, .f32⟩ : BufTy).Contents (Elt Ideal))
    (i : S_.Idx) : val_main_v5 (F := Ideal) z p i = loss z p := by
  rw [val_main_v5_apply, val_main_v1_apply, val_main_v4_apply]
  simp only [val_main_cst_apply, val_main_cst_0_apply, val_main_v0_apply, val_main_v3_apply, val_main_v2_apply,
    Ideal.subf_def, Ideal.mulf_def, Ideal.ofBits_def, Ideal.ofBits_zero_f32, zero_add]
  rw [sum_idx2, sum_idx2]
  simp only [lidx_eq, ridx_eq]
  rfl

end Cert.ReferenceIdeal.RefValue
-- ==== Proof.lean ====
/-
  The kernel computes the clustering loss `tr(Z Zᵀ) − tr(Pᵀ Z Zᵀ P) = Σ z² − ‖ZᵀP‖²` of a [200000, 256] array `z` and a
  [200000, 20] array `p` in one pass over the rows, 20 tiles of 10000 rows: a [1, 1] running total of the squares and
  a [256, 20] running total of `zᵀp`, both zeroed at the first tile, each tile's contribution added, and the result
  `total₁ − Σ total₂²` stored after the last tile. The reference computes the same two sums whole.

  Over the extended reals both are `Cert.Spec.loss z p`: the reference term by term (Proof/RefValue.lean), the kernel
  because its running totals after the last tile are the whole sums regrouped by tile (Proof/Running.lean,
  Proof/TileSums.lean), which needs only that `+` is commutative and associative — so the precondition is never
  opened. The three frames are the generated ones (the reference's is its run with the result dropped), and the
  idealization rewrote nothing.
-/
import proofs.«145819_j51539607552337_1_alg».proof.Defs
import proofs.«145819_j51539607552337_1_alg».proof.Proof.Gen.Kernel
import proofs.«145819_j51539607552337_1_alg».proof.Proof.Gen.Kernel.Frame
import proofs.«145819_j51539607552337_1_alg».proof.Proof.Gen.KernelIdeal
import proofs.«145819_j51539607552337_1_alg».proof.Proof.Gen.KernelIdeal.Frame
import proofs.«145819_j51539607552337_1_alg».proof.Proof.Gen.ReferenceIdeal
import proofs.«145819_j51539607552337_1_alg».proof.Proof.Gen.ReferenceIdeal.Run
import proofs.«145819_j51539607552337_1_alg».proof.Proof.Gen.ReferenceIdeal.Read
import proofs.«145819_j51539607552337_1_alg».proof.Proof.Gen.Pre_finite_inputs
import proofs.«145819_j51539607552337_1_alg».proof.Proof.KernelRun
import proofs.«145819_j51539607552337_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the loss of the (agreeing) argument arrays at their scalar result. -/
theorem algebraic : Cert.algebraic_KernelIdeal_ReferenceIdeal := by
  intro m ρ m' ρ' _ hagree
  refine ⟨fun c => fun _ => Cert.Spec.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, (hagree c).1, (hagree c).2]
  exact funext fun i => Cert.ReferenceIdeal.RefValue.ref_eq_loss _ _ i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
